-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4 : Shape := ⟨3, ![64, 2048, 4]⟩
abbrev S_ : Shape := ⟨0, ![]⟩

class Facts : Prop where
  bcast_S_S64x2048x4 : S_.BroadcastsInDim S64x2048x4 (![] : Fin 0 → Fin S64x2048x4.rank)
  reducesTo_S64x2048x4_S_d0_1_2 : S64x2048x4.ReducesTo [0, 1, 2] S_
  h_S_ : 0 < S_.numel

variable [Facts]

def fn {F : FTy → Type} [FloatOps F] (main_arg0 : FVec F S64x2048x4 .f32) (main_arg1 : FVec F S64x2048x4 .f32) : IVec S_ 1 :=
  let main_v0 : FVec F S64x2048x4 .f32 := Host.absf main_arg0
  let main_cst : FVec F S_ .f32 := constant S_ .f32 0x7F800000#32
  let main_v1 : FVec F S64x2048x4 .f32 := broadcastInDim S64x2048x4 ![] bcast_S_S64x2048x4 main_cst
  let main_v2 : IVec S64x2048x4 1 := cmpf .olt main_v0 main_v1
  let main_c : IVec S_ 1 := constantI S_ 1 1#1
  let main_v3 : IVec S_ 1 := (fun x v => Host.reduce IntOp.andi x v reducesTo_S64x2048x4_S_d0_1_2 h_S_) main_v2 main_c
  let main_v4 : FVec F S64x2048x4 .f32 := Host.absf main_arg1
  let main_cst_0 : FVec F S_ .f32 := constant S_ .f32 0x7F800000#32
  let main_v5 : FVec F S64x2048x4 .f32 := broadcastInDim S64x2048x4 ![] bcast_S_S64x2048x4 main_cst_0
  let main_v6 : IVec S64x2048x4 1 := cmpf .olt main_v4 main_v5
  let main_c_1 : IVec S_ 1 := constantI S_ 1 1#1
  let main_v7 : IVec S_ 1 := (fun x v => Host.reduce IntOp.andi x v reducesTo_S64x2048x4_S_d0_1_2 h_S_) main_v6 main_c_1
  let main_v8 : IVec S_ 1 := andi main_v3 main_v7
  main_v8
-- ==== Kernel.lean ====
abbrev S64x2048x4 : Shape := ⟨3, ![64, 2048, 4]⟩
abbrev S64x1 : Shape := ⟨2, ![64, 1]⟩
abbrev S8x2048x4 : Shape := ⟨3, ![8, 2048, 4]⟩
abbrev S8x128x4 : Shape := ⟨3, ![8, 128, 4]⟩
abbrev S8x1 : Shape := ⟨2, ![8, 1]⟩
abbrev S8x2048 : Shape := ⟨2, ![8, 2048]⟩
abbrev S8x2048x3 : Shape := ⟨3, ![8, 2048, 3]⟩
abbrev S8x128x3 : Shape := ⟨3, ![8, 128, 3]⟩
abbrev S8x128 : Shape := ⟨2, ![8, 128]⟩
abbrev S8x2048x128 : Shape := ⟨3, ![8, 2048, 128]⟩
abbrev S8x2048x1 : Shape := ⟨3, ![8, 2048, 1]⟩
abbrev S8x1x128 : Shape := ⟨3, ![8, 1, 128]⟩
abbrev S8 : Shape := ⟨1, ![8]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x1, .f32⟩
  | .hbm, ⟨3, _⟩ => ⟨S_, .f32⟩
  | .hbm, ⟨4, _⟩ => ⟨S_, .f32⟩
  | .local _ .vmem, ⟨0, _⟩ => ⟨S8x2048x4, .f32⟩
  | .local _ .vmem, ⟨1, _⟩ => ⟨S8x2048x4, .f32⟩
  | .local _ .vmem, ⟨2, _⟩ => ⟨S8x128x4, .f32⟩
  | .local _ .vmem, ⟨3, _⟩ => ⟨S8x128x4, .f32⟩
  | .local _ .vmem, ⟨4, _⟩ => ⟨S8x1, .f32⟩
  | .local _ .vmem, ⟨5, _⟩ => ⟨S8x1, .f32⟩
  | .local _ .vmem, ⟨6, _⟩ => ⟨S8x2048, .f32⟩
  | .local _ .vmem, ⟨7, _⟩ => ⟨S8x1, .f32⟩
  | _, _ => ⟨S64x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_23 : BitVec 32 := 0#32
  let v43 : BitVec 1 := Scalar.cmpi .ne v42 c0_i32_23
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x2048x4_S8x2048x4_0_0_0 : ∀ a, (![0, 0, 0] : Fin 3 → Nat) a + S8x2048x4.size a ≤ S8x2048x4.size a
  h_S8x2048x4 : 0 < S8x2048x4.numel
  inb_S8x128x4_S8x128x4_0_0_0 : ∀ a, (![0, 0, 0] : Fin 3 → Nat) a + S8x128x4.size a ≤ S8x128x4.size a
  h_S8x128x4 : 0 < S8x128x4.numel
  slices_S8x2048x4_o0_0_1_S8x2048x3 : S8x2048x4.Slices ![0, 0, 1] S8x2048x3
  slices_S8x128x4_o0_0_1_S8x128x3 : S8x128x4.Slices ![0, 0, 1] S8x128x3
  reduces_S8x2048x3_S8x2048 : S8x2048x3.Reduces [2] S8x2048
  reduces_S8x128x3_S8x128 : S8x128x3.Reduces [2] S8x128
  shapeCasts_S8x2048_S8x2048x1 : S8x2048.ShapeCasts S8x2048x1
  shapeCasts_S8x128_S8x1x128 : S8x128.ShapeCasts S8x1x128
  broadcasts_S8x2048x1_S8x2048x128 : S8x2048x1.Broadcasts S8x2048x128
  broadcasts_S8x1x128_S8x2048x128 : S8x1x128.Broadcasts S8x2048x128
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  reduces_S8x2048x128_S8x2048 : S8x2048x128.Reduces [2] S8x2048
  reduces_S8x2048x128_S8x128 : S8x2048x128.Reduces [1] S8x128
  reduces_S8x128_S8 : S8x128.Reduces [1] S8
  shapeCasts_S8_S8x1 : S8.ShapeCasts S8x1
  reduces_S8x2048_S8 : S8x2048.Reduces [1] S8
  reducesTo_S64x1_S_d0_1 : S64x1.ReducesTo [0, 1] S_
  h_S_ : 0 < S_.numel
  dot_S8x2048x3_S8x128x3_S8x2048x128_2_2_1_1_0_0_wf : DotDims.WF S8x2048x3 S8x128x3 S8x2048x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x4.size a ≤ S64x2048x4.size a
  hwx0_0 : ∀ i : grid0.Coords, EltTy.bits .f32 = 32 ∨ (Rect.block (s := S64x2048x4) S8x2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x4.size a ≤ S64x2048x4.size a
  hwx0_1 : ∀ i : grid0.Coords, EltTy.bits .f32 = 32 ∨ (Rect.block (s := S64x2048x4) S8x128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def dot_S8x2048x3_S8x128x3_S8x2048x128_2_2_1_1_0_0 : DotDims S8x2048x3 S8x128x3 S8x2048x128 where
  lhsContracting := [2]
  rhsContracting := [2]
  lhsNonContracting := [1]
  rhsNonContracting := [1]
  lhsBatch := [0]
  rhsBatch := [0]
  wf := dot_S8x2048x3_S8x128x3_S8x2048x128_2_2_1_1_0_0_wf

abbrev win0_0 : Pipeline.Window sig grid0 :=
  Pipeline.Window.ofSpec (Memref.whole main_arg0) S8x2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x4 : Shape := ⟨3, ![64, 2048, 4]⟩
abbrev S64x2048x3 : Shape := ⟨3, ![64, 2048, 3]⟩
abbrev S_ : Shape := ⟨0, ![]⟩
abbrev S64x2048 : Shape := ⟨2, ![64, 2048]⟩
abbrev S64x2048x2048 : Shape := ⟨3, ![64, 2048, 2048]⟩
abbrev S64x2048x1 : Shape := ⟨3, ![64, 2048, 1]⟩
abbrev S64x1x2048 : Shape := ⟨3, ![64, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x2048x3, .f32⟩
  | .hbm, ⟨3, _⟩ => ⟨S64x2048x3, .f32⟩
  | .hbm, ⟨4, _⟩ => ⟨S64x2048x3, .f32⟩
  | .hbm, ⟨5, _⟩ => ⟨S_, .f32⟩
  | .hbm, ⟨6, _⟩ => ⟨S64x2048, .f32⟩
  | .hbm, ⟨7, _⟩ => ⟨S64x2048x3, .f32⟩
  | .hbm, ⟨8, _⟩ => ⟨S_, .f32⟩
  | .hbm, ⟨9, _⟩ => ⟨S64x2048, .f32⟩
  | .hbm, ⟨10, _⟩ => ⟨S64x2048x2048, .f32⟩
  | .hbm, ⟨11, _⟩ => ⟨S64x2048x1, .f32⟩
  | .hbm, ⟨12, _⟩ => ⟨S64x1x2048, .f32⟩
  | .hbm, ⟨13, _⟩ => ⟨S64x2048x2048, .f32⟩
  | .hbm, ⟨14, _⟩ => ⟨S64x2048x2048, .f32⟩
  | .hbm, ⟨15, _⟩ => ⟨S64x2048x2048, .f32⟩
  | .hbm, ⟨16, _⟩ => ⟨S_, .f32⟩
  | .hbm, ⟨17, _⟩ => ⟨S64x2048x2048, .f32⟩
  | .hbm, ⟨18, _⟩ => ⟨S64x2048x2048, .f32⟩
  | .hbm, ⟨19, _⟩ => ⟨S64x2048x2048, .f32⟩
  | .hbm, ⟨20, _⟩ => ⟨S_, .f32⟩
  | .hbm, ⟨21, _⟩ => ⟨S64x2048x2048, .f32⟩
  | .hbm, ⟨22, _⟩ => ⟨S64x2048x2048, .f32⟩
  | .hbm, ⟨23, _⟩ => ⟨S_, .f32⟩
  | .hbm, ⟨24, _⟩ => ⟨S64x2048x2048, .f32⟩
  | .hbm, ⟨25, _⟩ => ⟨S64x2048x2048, .f32⟩
  | .hbm, ⟨26, _⟩ => ⟨S64x2048x2048, .f32⟩
  | .hbm, ⟨27, _⟩ => ⟨S_, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S_, .f32⟩
  | _, _ => ⟨S64x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S64x2048x4_S64x2048x3_0_0_1 : S64x2048x4.Slices ![0, 0, 1] S64x2048x3
  reducesTo_S64x2048x3_S64x2048_d2 : S64x2048x3.ReducesTo [2] S64x2048
  h_S_ : 0 < S_.numel
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S_S64x2048x2048 : S_.BroadcastsInDim S64x2048x2048 (![] : Fin 0 → Fin S64x2048x2048.rank)
  reducesTo_S64x2048x2048_S64x2048_d2 : S64x2048x2048.ReducesTo [2] S64x2048
  reducesTo_S64x2048x2048_S64x2048_d1 : S64x2048x2048.ReducesTo [1] S64x2048
  bcast_S_S64x2048 : S_.BroadcastsInDim S64x2048 (![] : Fin 0 → Fin S64x2048.rank)
  reducesTo_S64x2048_S_d0_1 : S64x2048.ReducesTo [0, 1] S_
  dot_S64x2048x3_S64x2048x3_S64x2048x2048_2_2_1_1_0_0_wf : DotDims.WF S64x2048x3 S64x2048x3 S64x2048x2048 [2] [2] [1] [1] [0] [0]

variable [Facts₀]

def dot_S64x2048x3_S64x2048x3_S64x2048x2048_2_2_1_1_0_0 : DotDims S64x2048x3 S64x2048x3 S64x2048x2048 where
  lhsContracting := [2]
  rhsContracting := [2]
  lhsNonContracting := [1]
  rhsNonContracting := [1]
  lhsBatch := [0]
  rhsBatch := [0]
  wf := dot_S64x2048x3_S64x2048x3_S64x2048x2048_2_2_1_1_0_0_wf

class Facts : Prop extends Facts₀ where

variable [Facts]
-- ==== Proof.ChamferSpec.lean ====
/-
  The Chamfer loss between two point clouds, as one function of the two argument arrays, and the
  arithmetic on the extended reals that joins its two arrangements.

  For a batch `b`, a point `n` of `p` and a point `m` of `q` the distance is
    D b n m = sqrt (max (|p b n|² + |q b m|² - 2 · ⟨p b n, q b m⟩) 0 + ε)
  over the three spatial coordinates (coordinates 1, 2, 3 of the last axis). The loss is
    ∑ b n, (min_m D b n m + min_k D b k n) · ½
  (the first minimum over the points m of `q`, the second over the points k of `p`).
  One arrangement takes the sum as written. The other walks the points of `q` in sixteen tiles of
  128: per batch it keeps a running row minimum (the minimum over the tiles seen so far), adds half
  the sum of each tile's column minima as it goes, and after the last tile adds half the sum of the
  row minima. The two agree because a minimum over a union is the minimum of the minima, because
  sums commute, and because multiplication by the nonnegative real ½ distributes over every sum of
  extended reals (no finiteness is needed for that).
-/
import Idealize.ShloMosaic.PureOps.Ideal.Laws
import Idealize.ShloMosaic.Lib.ValueIdx

noncomputable section

namespace Cert.Chamfer

open Idealize.ShloMosaic Idealize.ShloMosaic.ValueIdx

/-! ## The constants, as the words both programs spell -/

abbrev zer : EReal := Ideal.ofBits .f32 0x00000000#32
abbrev two : EReal := Ideal.ofBits .f32 0x40000000#32
abbrev eps : EReal := Ideal.ofBits .f32 0x24E69595#32
abbrev half : EReal := Ideal.ofBits .f32 0x3F000000#32
abbrev pinf : EReal := Ideal.ofBits .f32 0x7F800000#32

theorem zer_eq : zer = 0 := Ideal.ofBits_zero_f32

/-- The word `0x3F000000` denotes the real ½. -/
theorem half_eq : half = ((1 / 2 : ℝ) : EReal) := by
  simp [Ideal.ofBits, Ideal.ieee, -EReal.coe_mul]; norm_num

theorem half_nonneg : (0 : EReal) ≤ half := by
  rw [half_eq]; exact EReal.coe_nonneg.mpr (by norm_num)

theorem half_ne_top : half ≠ ⊤ := by
  rw [half_eq]; exact EReal.coe_ne_top _

/-- ½ times a sum is the sum of the halves, on all extended reals. -/
theorem half_mul_sum {ι : Type} (s : Finset ι) (f : ι → EReal) :
    half * ∑ i ∈ s, f i = ∑ i ∈ s, half * f i := by
  classical
  induction s using Finset.induction_on with
  | empty => simp
  | insert a s ha ih =>
    rw [Finset.sum_insert ha, Finset.sum_insert ha,
      EReal.left_distrib_of_nonneg_of_ne_top half_nonneg half_ne_top, ih]

/-! ## The distance -/

/-- The squared length of a 3-vector. -/
def sq3 (u : Fin 3 → EReal) : EReal := ∑ k : Fin 3, u k * u k
/-- The inner product of two 3-vectors. -/
def dot3 (u v : Fin 3 → EReal) : EReal := ∑ k : Fin 3, u k * v k

/-- The distance between two 3-vectors, as both programs compute it:
    `sqrt (max (|u|² + |v|² - 2⟨u, v⟩) 0 + ε)`. -/
def dcore (u v : Fin 3 → EReal) : EReal :=
  Ideal.sqrt (max ((sq3 u + sq3 v) - two * dot3 u v) zer + eps)

/-- The arrays' shape: 64 batches of 2048 points of 4 coordinates. -/
abbrev A3 : Shape := ⟨3, ![64, 2048, 4]⟩

/-- Spatial coordinate `k` is coordinate `1 + k` of the last axis. -/
def coord (k : Fin 3) : Fin 4 := ⟨1 + k.val, by have := k.isLt; omega⟩

/-- The spatial part of point `n` of batch `b`. -/
def vec3 (x : A3.Idx → EReal) (b : Fin 64) (n : Fin 2048) : Fin 3 → EReal :=
  fun k => x (ix3 b n (coord k))

/-- The distance between point `n` of `p` and point `m` of `q` in batch `b`. -/
def D (p q : A3.Idx → EReal) (b : Fin 64) (n m : Fin 2048) : EReal :=
  dcore (vec3 p b n) (vec3 q b m)

/-- For each point of `p`, the distance to the nearest point of `q`. -/
def rowmin (p q : A3.Idx → EReal) (b : Fin 64) (n : Fin 2048) : EReal :=
  (Finset.univ : Finset (Fin 2048)).fold min pinf (fun m => D p q b n m)

/-- For each point of `q`, the distance to the nearest point of `p`. -/
def colmin (p q : A3.Idx → EReal) (b : Fin 64) (m : Fin 2048) : EReal :=
  (Finset.univ : Finset (Fin 2048)).fold min pinf (fun n => D p q b n m)

/-- The loss as written: the sum over batches and points of half the two minima. -/
def refVal (p q : A3.Idx → EReal) : EReal :=
  zer + ∑ i : (⟨2, ![64, 2048]⟩ : Shape).Idx, (rowmin p q (i 0) (i 1) + colmin p q (i 0) (i 1)) * half

/-! ## The tiled arrangement -/

/-- The distance at a natural-number column (`+∞` past the array: neutral for the minimum). -/
def DN (p q : A3.Idx → EReal) (b : Fin 64) (n : Fin 2048) (j : ℕ) : EReal :=
  if h : j < 2048 then D p q b n ⟨j, h⟩ else pinf

/-- The column minimum at a natural-number column (`0` past the array: neutral for the sum). -/
def colminN (p q : A3.Idx → EReal) (b : Fin 64) (j : ℕ) : EReal :=
  if h : j < 2048 then colmin p q b ⟨j, h⟩ else 0

/-- The running row minimum after `k` tiles of 128 columns. -/
def rowminUpTo (p q : A3.Idx → EReal) (b : Fin 64) (n : Fin 2048) (k : ℕ) : EReal :=
  (Finset.range (128 * k)).fold min pinf (fun j => DN p q b n j)

/-- The running sum, after `k` tiles, of half each tile's sum of column minima. -/
def colsumUpTo (p q : A3.Idx → EReal) (b : Fin 64) (k : ℕ) : EReal :=
  ∑ j ∈ Finset.range k, half * ∑ l : Fin 128, colminN p q b (128 * j + l.val)

/-- What the tiled arrangement leaves for batch `b`: the sixteen tiles' half column sums, then half the
    sum of the row minima. -/
def kerOut (p q : A3.Idx → EReal) (b : Fin 64) : EReal :=
  colsumUpTo p q b 16 + half * ∑ n : Fin 2048, rowmin p q b n

/-- The loss in the tiled arrangement: the per-batch values summed. -/
def kerVal (p q : A3.Idx → EReal) : EReal :=
  zer + ∑ i : (⟨2, ![64, 1]⟩ : Shape).Idx, kerOut p q (i 0)

/-! ## Minima over tiles -/

theorem rowminUpTo_zero (p q : A3.Idx → EReal) (b : Fin 64) (n : Fin 2048) :
    rowminUpTo p q b n 0 = pinf := by
  simp [rowminUpTo]

/-- One more tile: the minimum over the first `k + 1` tiles is the minimum of the one over the first
    `k` and the new tile's. -/
theorem rowminUpTo_succ (p q : A3.Idx → EReal) (b : Fin 64) (n : Fin 2048) (k : ℕ) :
    rowminUpTo p q b n (k + 1)
      = min (rowminUpTo p q b n k)
          ((Finset.univ : Finset (Fin 128)).fold min pinf (fun l => DN p q b n (128 * k + l.val))) := by
  refine eq_of_forall_le_iff fun z => ?_
  unfold rowminUpTo
  rw [le_min_iff, Finset.le_fold_min, Finset.le_fold_min, Finset.le_fold_min]
  constructor
  · rintro ⟨hz, h⟩
    refine ⟨⟨hz, fun j hj => h j ?_⟩, hz, fun l _ => h _ ?_⟩
    · rw [Finset.mem_range] at hj ⊢; omega
    · rw [Finset.mem_range]; have := l.isLt; omega
  · rintro ⟨⟨hz, h1⟩, _, h2⟩
    refine ⟨hz, fun j hj => ?_⟩
    rw [Finset.mem_range] at hj
    by_cases hlt : j < 128 * k
    · exact h1 j (Finset.mem_range.mpr hlt)
    · have e : j = 128 * k + (⟨j - 128 * k, by omega⟩ : Fin 128).val := by simp only; omega
      rw [e]; exact h2 _ (Finset.mem_univ _)

/-- After all sixteen tiles the running minimum is the row minimum. -/
theorem rowminUpTo_all (p q : A3.Idx → EReal) (b : Fin 64) (n : Fin 2048) :
    rowminUpTo p q b n 16 = rowmin p q b n := by
  refine eq_of_forall_le_iff fun z => ?_
  unfold rowminUpTo rowmin
  rw [Finset.le_fold_min, Finset.le_fold_min]
  constructor
  · rintro ⟨hz, h⟩
    refine ⟨hz, fun m _ => ?_⟩
    have := h m.val (Finset.mem_range.mpr (by have := m.isLt; omega))
    rwa [DN, dif_pos m.isLt] at this
  · rintro ⟨hz, h⟩
    refine ⟨hz, fun j hj => ?_⟩
    rw [Finset.mem_range] at hj
    rw [DN, dif_pos (by omega)]
    exact h _ (Finset.mem_univ _)

theorem colsumUpTo_zero (p q : A3.Idx → EReal) (b : Fin 64) : colsumUpTo p q b 0 = 0 := by
  simp [colsumUpTo]

theorem colsumUpTo_succ (p q : A3.Idx → EReal) (b : Fin 64) (k : ℕ) :
    colsumUpTo p q b (k + 1)
      = colsumUpTo p q b k + half * ∑ l : Fin 128, colminN p q b (128 * k + l.val) := by
  unfold colsumUpTo; rw [Finset.sum_range_succ]

/-! ## The two arrangements agree -/

/-- A sum over `K` tiles of `L` is the sum over the `L * K` columns. -/
theorem sum_tiles (g : ℕ → EReal) (L : ℕ) : ∀ K : ℕ,
    ∑ j ∈ Finset.range K, ∑ l ∈ Finset.range L, g (L * j + l) = ∑ i ∈ Finset.range (L * K), g i
  | 0 => by simp
  | K + 1 => by
    rw [Finset.sum_range_succ, sum_tiles g L K, Nat.mul_succ, Finset.sum_range_add]

/-- The sixteen tiles' half column sums are half the column minima, summed over all columns. -/
theorem colsumUpTo_all (p q : A3.Idx → EReal) (b : Fin 64) :
    colsumUpTo p q b 16 = ∑ m : Fin 2048, half * colmin p q b m := by
  unfold colsumUpTo
  have h1 : ∀ j ∈ Finset.range 16, half * ∑ l : Fin 128, colminN p q b (128 * j + l.val)
      = ∑ l ∈ Finset.range 128, half * colminN p q b (128 * j + l) := fun j _ => by
    rw [half_mul_sum, Finset.sum_range (fun l => half * colminN p q b (128 * j + l))]
  rw [Finset.sum_congr rfl h1, sum_tiles (fun i => half * colminN p q b i) 128 16,
    Finset.sum_range (fun i => half * colminN p q b i)]
  refine Finset.sum_congr rfl fun m _ => ?_
  rw [colminN, dif_pos m.isLt]

/-- Per batch: the tiled arrangement's value is the sum over the points of half the two minima. -/
theorem kerOut_eq (p q : A3.Idx → EReal) (b : Fin 64) :
    kerOut p q b = ∑ n : Fin 2048, (rowmin p q b n + colmin p q b n) * half := by
  unfold kerOut
  rw [colsumUpTo_all, half_mul_sum, ← Finset.sum_add_distrib]
  refine Finset.sum_congr rfl fun n _ => ?_
  rw [EReal.mul_comm (rowmin p q b n + colmin p q b n) half,
    EReal.left_distrib_of_nonneg_of_ne_top half_nonneg half_ne_top, add_comm]

/-- The two arrangements of the loss are one extended real. -/
theorem kerVal_eq_refVal (p q : A3.Idx → EReal) : kerVal p q = refVal p q := by
  unfold kerVal refVal
  rw [sum_idx2, sum_idx2]
  refine congrArg (zer + ·) (Finset.sum_congr rfl fun b _ => ?_)
  rw [Fintype.sum_unique]
  exact kerOut_eq p q b

end Cert.Chamfer

end
-- ==== Proof.LibAxisFolds.lean ====
/-
  A reduction over ONE axis of a vector of extended reals, read at a result index as a fold or a sum
  over `Fin n` of a function the caller names: the minimum-reductions of a kernel
  (`vector.multi_reduction <minimumf>`) and of a host program (`stablehlo.reduce` with a minimum body)
  as `Finset.fold min` from the initial value, and a kernel's `<add>` reduction as a `∑`. The extent
  `n` is a variable equated with the reduced axis's size, so the statements apply unchanged at any
  literal shape: the index set of the fold or sum is `Fin n` for the literal `n`.
-/
import Idealize.ShloMosaic.PureOps.Ideal.Laws

namespace Cert.LibAxisFolds

open Idealize.ShloMosaic

variable {s t : Shape} {a : Fin s.rank} {φ : FTy}

/-- A host minimum-reduction over one axis, at `j`: the fold of `min` from the initial value's element
    over the reduced axis's coordinates, each read as the caller's `f`. -/
theorem hostReduce_min_single {u : Shape} (x : FVec Ideal s φ) (init : u.Idx → Ideal φ) (h' : s.ReducesTo [a] t)
    (h : s.Reduces [a] t) (hu : 0 < u.numel) (j : t.Idx) (n : ℕ) (hn : s.size a = n) (f : Fin n → EReal)
    (hf : ∀ k : Fin (s.size a), x (h.lift j k) = f (k.cast hn)) :
    Host.reduce FloatOps.minimumf x init h' hu j
      = (Finset.univ : Finset (Fin n)).fold min (init (Shape.Idx.first hu)) f := by
  subst hn
  rw [Host.reduce_eq_fold_single FloatOps.minimumf x init h' h hu j]
  have e : (x ∘ h.lift j) = f := funext fun k => hf k
  rw [e]; rfl

/-- A kernel's minimum-reduction over one axis, at `j`: the fold of `min` from the accumulator's value. -/
theorem multiReduction_min_single (src : FVec Ideal s φ) (acc : BitVec φ.bits) (h : s.Reduces [a] t)
    (hφ : FKind.Formats φ) (hacc : acc = FKind.minimumf.neutral φ hφ) (j : t.Idx) (n : ℕ) (hn : s.size a = n)
    (f : Fin n → EReal) (hf : ∀ k : Fin (s.size a), src (h.lift j k) = f (k.cast hn)) :
    multiReduction .minimumf [a] t src acc h hφ hacc j
      = (Finset.univ : Finset (Fin n)).fold min (Ideal.ofBits φ acc) f := by
  subst hn
  classical
  rw [multiReduction_minimumf_eq_fold, h.fold_filter_drop_single]
  have e : (src ∘ h.lift j) = f := funext fun k => hf k
  rw [e]; rfl

/-- A kernel's sum over one axis, at `j`: the sum of the caller's `f` over the axis's coordinates. -/
theorem multiReduction_add_single (src : FVec Ideal s φ) (acc : BitVec φ.bits) (h : s.Reduces [a] t)
    (hφ : FKind.Formats φ) (hacc : acc = FKind.add.neutral φ hφ) (j : t.Idx) (n : ℕ) (hn : s.size a = n)
    (f : Fin n → EReal) (hf : ∀ k : Fin (s.size a), src (h.lift j k) = f (k.cast hn)) :
    multiReduction .add [a] t src acc h hφ hacc j = ∑ k : Fin n, f k := by
  subst hn
  rw [Ideal.multiReduction_add_single]
  exact Finset.sum_congr rfl fun k _ => hf k

end Cert.LibAxisFolds
-- ==== Proof.RefValue.lean ====
/-
  The reference program's result, read at the extended reals, is the loss as written: every stage of
  its straight line is read at an index, the two minimum-reductions as folds of `min` over the reduced
  axis's coordinates, and the pieces are the distance, the row minimum, the column minimum and the
  final sum of the specification.
-/
import proofs.«154661_j49727131353178_1_alg».proof.Proof.Gen.ReferenceIdeal.Read
import proofs.«154661_j49727131353178_1_alg».proof.Proof.ChamferSpec
import proofs.«154661_j49727131353178_1_alg».proof.Proof.LibAxisFolds

noncomputable section

namespace Cert.ReferenceIdeal.RefValue

open Cert.ReferenceIdeal Cert.ReferenceIdeal.Gen Cert.ReferenceIdeal.Read
open Idealize.ShloMosaic Idealize.ShloMosaic.ValueIdx Cert.Chamfer

/-- The spatial part of a point read through the reference's slice. -/
theorem slice_p (x : (⟨S64x2048x4, .f32⟩ : BufTy).Contents (Elt Ideal)) (j : S64x2048x3.Idx) :
    val_main_v0 (F := Ideal) x j = vec3 x (j 0) (j 1) (j 2) := by
  rw [val_main_v0_apply]
  exact congrArg x (funext fun a => by match a with | ⟨0, _⟩ => rfl | ⟨1, _⟩ => rfl | ⟨2, _⟩ => rfl)

theorem slice_q (x : (⟨S64x2048x4, .f32⟩ : BufTy).Contents (Elt Ideal)) (j : S64x2048x3.Idx) :
    val_main_v1 (F := Ideal) x j = vec3 x (j 0) (j 1) (j 2) := by
  rw [val_main_v1_apply]
  exact congrArg x (funext fun a => by match a with | ⟨0, _⟩ => rfl | ⟨1, _⟩ => rfl | ⟨2, _⟩ => rfl)

/-- The squared lengths of the points of `p`: the host sum from zero over the three coordinates. -/
theorem psq (x0 : (⟨S64x2048x4, .f32⟩ : BufTy).Contents (Elt Ideal)) (j : S64x2048.Idx) :
    val_main_v3 (F := Ideal) x0 j = sq3 (vec3 x0 (j 0) (j 1)) := by
  rw [val_main_v3_apply, val_main_cst_apply, Ideal.ofBits_def, Ideal.ofBits_zero_f32, zero_add]
  refine Finset.sum_congr rfl fun k _ => ?_
  rw [val_main_v2_apply, slice_p, Ideal.mulf_def]
  rfl

theorem qsq (x1 : (⟨S64x2048x4, .f32⟩ : BufTy).Contents (Elt Ideal)) (j : S64x2048.Idx) :
    val_main_v5 (F := Ideal) x1 j = sq3 (vec3 x1 (j 0) (j 1)) := by
  rw [val_main_v5_apply, val_main_cst_0_apply, Ideal.ofBits_def, Ideal.ofBits_zero_f32, zero_add]
  refine Finset.sum_congr rfl fun k _ => ?_
  rw [val_main_v4_apply, slice_q, Ideal.mulf_def]
  rfl

/-- The batched product of the spatial parts is the inner product. -/
theorem cross (x0 x1 : (⟨S64x2048x4, .f32⟩ : BufTy).Contents (Elt Ideal)) (i : S64x2048x2048.Idx) :
    val_main_v6 (F := Ideal) x0 x1 i = dot3 (vec3 x0 (i 0) (i 1)) (vec3 x1 (i 0) (i 2)) := by
  rw [val_main_v6_apply]
  refine Finset.sum_congr rfl fun k _ => ?_
  rw [slice_p, slice_q]
  rfl

/-- The reference's distance array is `D`. -/
theorem dist (x0 x1 : (⟨S64x2048x4, .f32⟩ : BufTy).Contents (Elt Ideal)) (i : S64x2048x2048.Idx) :
    val_main_v19 (F := Ideal) x0 x1 i = D x0 x1 (i 0) (i 1) (i 2) := by
  rw [val_main_v19_apply, val_main_v18_apply, val_main_v16_apply, val_main_v17_apply, val_main_cst_3_apply,
    val_main_v15_apply, val_main_cst_2_apply, val_main_v14_apply, val_main_v11_apply, val_main_v13_apply,
    val_main_v12_apply, val_main_cst_1_apply, val_main_v9_apply, val_main_v7_apply, val_main_v10_apply,
    val_main_v8_apply, psq, qsq, cross]
  simp only [Ideal.hostUnary_sqrt_def, Ideal.addf_def, Ideal.maximumf_def, Ideal.subf_def, Ideal.mulf_def,
    Ideal.ofBits_def]
  rfl

/-- The minimum over the points of `q`. -/
theorem minq (x0 x1 : (⟨S64x2048x4, .f32⟩ : BufTy).Contents (Elt Ideal)) (j : S64x2048.Idx) :
    val_main_v20 (F := Ideal) x0 x1 j = rowmin x0 x1 (j 0) (j 1) := by
  unfold val_main_v20
  exact Cert.LibAxisFolds.hostReduce_min_single _ _ reducesTo_S64x2048x2048_S64x2048_d2 (by decide) h_S_ j 2048 rfl
    (fun m => D x0 x1 (j 0) (j 1) m) (fun k => dist x0 x1 _)

/-- The minimum over the points of `p`. -/
theorem minp (x0 x1 : (⟨S64x2048x4, .f32⟩ : BufTy).Contents (Elt Ideal)) (j : S64x2048.Idx) :
    val_main_v21 (F := Ideal) x0 x1 j = colmin x0 x1 (j 0) (j 1) := by
  unfold val_main_v21
  exact Cert.LibAxisFolds.hostReduce_min_single _ _ reducesTo_S64x2048x2048_S64x2048_d1 (by decide) h_S_ j 2048 rfl
    (fun n => D x0 x1 (j 0) n (j 1)) (fun k => dist x0 x1 _)

/-- The reference's result is the loss as written. -/
theorem result_eq (x0 x1 : (⟨S64x2048x4, .f32⟩ : BufTy).Contents (Elt Ideal)) :
    val_main_v25 (F := Ideal) x0 x1 = fun _ => refVal x0 x1 := by
  funext i
  rw [val_main_v25_apply, val_main_cst_7_apply]
  unfold refVal
  refine congrArg (zer + ·) (Finset.sum_congr rfl fun j _ => ?_)
  rw [val_main_v24_apply, val_main_v22_apply, val_main_v23_apply, val_main_cst_6_apply, minq, minp]
  rfl

end Cert.ReferenceIdeal.RefValue

end
-- ==== Proof.BodyCases.lean ====
/-
  What each control case of the kernel body leaves in the two carried scratch buffers and in the
  output block, as the body's own arithmetic applied to what it loaded. The body has three cases
  along the key-tile axis: the first tile (reset, then accumulate), a middle tile (accumulate), the
  last tile (accumulate, then add the row-minimum sum and store the result).

    first  : row-min scratch ← min-update of +∞ ;  sum scratch ← update of 0
    middle : row-min scratch ← min-update of what it held ;  sum scratch ← update of what it held
    last   : as the middle case, then  sum scratch ← finish(sum scratch, row-min scratch) ;  output ← sum scratch

  Each scratch buffer is stored whole, so what it holds after the case is the last store's payload;
  a load that follows a store in the same case reads that store's payload.
-/
import proofs.«154661_j49727131353178_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load after stores the last of which was a whole-buffer store reads that store's payload. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The row-minimum update: the old running minimum against this tile's minimum over its 128 columns. -/
abbrev updMin (x0 : Vec F S8x2048x4 .f32) (x1 : Vec F S8x128x4 .f32) (old : Vec F S8x2048 .f32) : Vec F S8x2048 .f32 :=
  k0_pay6 x0 x1 old
/-- The sum update: the old running sum plus half this tile's sum of column minima. -/
abbrev updSum (x0 : Vec F S8x2048x4 .f32) (x1 : Vec F S8x128x4 .f32) (old : Vec F S8x1 .f32) : Vec F S8x1 .f32 :=
  k0_pay1 (k0_pay7 x0 x1) old
/-- The finish: the running sum plus half the sum of the row minima. -/
abbrev finish (s : Vec F S8x1 .f32) (mn : Vec F S8x2048 .f32) : Vec F S8x1 .f32 := k0_pay2 s mn

theorem first_min (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : cond0_0 i) (hc1 : ¬cond0_1 i)
    (x0 : Vec F S8x2048x4 .f32) (x1 : Vec F S8x128x4 .f32) :
    sout0_A_0 c i arg2 harg2 arg3 harg3 arg4 harg4 arg5 harg5 arg6 harg6 hc0 hc1 x0 x1 = updMin x0 x1 (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x2048) hz2, View.readCov_unit_zero (S := S8x2048) _ hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem first_sum (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : cond0_0 i) (hc1 : ¬cond0_1 i)
    (x0 : Vec F S8x2048x4 .f32) (x1 : Vec F S8x128x4 .f32) :
    sout0_A_1 c i arg2 harg2 arg3 harg3 arg4 harg4 arg5 harg5 arg6 harg6 hc0 hc1 x0 x1 = updSum x0 x1 (k0_pay5 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem middle_min (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : ¬cond0_0 i) (hc1 : ¬cond0_1 i)
    (x0 : Vec F S8x2048x4 .f32) (x1 : Vec F S8x128x4 .f32) (xs0 : Vec F S8x2048 .f32) (xs1 : Vec F S8x1 .f32) :
    sout0_B_0 c i arg2 harg2 arg3 harg3 arg4 harg4 arg5 harg5 arg6 harg6 hc0 hc1 x0 x1 xs0 xs1 = updMin x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S8x2048) hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem middle_sum (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : ¬cond0_0 i) (hc1 : ¬cond0_1 i)
    (x0 : Vec F S8x2048x4 .f32) (x1 : Vec F S8x128x4 .f32) (xs0 : Vec F S8x2048 .f32) (xs1 : Vec F S8x1 .f32) :
    sout0_B_1 c i arg2 harg2 arg3 harg3 arg4 harg4 arg5 harg5 arg6 harg6 hc0 hc1 x0 x1 xs0 xs1 = updSum x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S8x1) hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem last_min (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : ¬cond0_0 i) (hc1 : cond0_1 i)
    (x0 : Vec F S8x2048x4 .f32) (x1 : Vec F S8x128x4 .f32) (xs0 : Vec F S8x2048 .f32) (xs1 : Vec F S8x1 .f32) :
    sout0_C_0 c i arg2 harg2 arg3 harg3 arg4 harg4 arg5 harg5 arg6 harg6 hc0 hc1 x0 x1 xs0 xs1 = updMin x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S8x2048) hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem last_sum (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : ¬cond0_0 i) (hc1 : cond0_1 i)
    (x0 : Vec F S8x2048x4 .f32) (x1 : Vec F S8x128x4 .f32) (xs0 : Vec F S8x2048 .f32) (xs1 : Vec F S8x1 .f32) :
    sout0_C_1 c i arg2 harg2 arg3 harg3 arg4 harg4 arg5 harg5 arg6 harg6 hc0 hc1 x0 x1 xs0 xs1 = finish (updSum x0 x1 xs1) (updMin x0 x1 xs0) := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_cons_unit_zero (S := S8x1) hz2, View.readCov_unit_zero (S := S8x1) _ hz2,
    View.readCov_unit_zero (S := S8x2048) _ hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

theorem last_out (c : Dev nD) (i : grid0.Coords) (arg2 : Memref sig .tc .vmem S8x2048x4 .f32) (harg2 : arg2.IsWhole) (arg3 : Memref sig .tc .vmem S8x128x4 .f32) (harg3 : arg3.IsWhole) (arg4 : Memref sig .tc .vmem S8x1 .f32) (harg4 : arg4.IsWhole) (arg5 : Memref sig .tc .vmem S8x2048 .f32) (harg5 : arg5.IsWhole) (arg6 : Memref sig .tc .vmem S8x1 .f32) (harg6 : arg6.IsWhole) (hc0 : ¬cond0_0 i) (hc1 : cond0_1 i)
    (x0 : Vec F S8x2048x4 .f32) (x1 : Vec F S8x128x4 .f32) (xs0 : Vec F S8x2048 .f32) (xs1 : Vec F S8x1 .f32) :
    out0_C_2 c i arg2 harg2 arg3 harg3 arg4 harg4 arg5 harg5 arg6 harg6 hc0 hc1 x0 x1 xs0 xs1 = finish (updSum x0 x1 xs1) (updMin x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S8x1) hz2, readCov_cons_whole (S := S8x1) _ hz2,
    View.readCov_unit_zero (S := S8x1) _ hz2, View.readCov_unit_zero (S := S8x2048) _ hz2]
  simp only [View.readAt_eq_ld, harg2.read_unread, harg3.read_unread, harg5.read_unread, harg6.read_unread, View.ld_unit_zero (S := S8x2048x4) hz3, View.ld_unit_zero (S := S8x128x4) hz3, View.ld_unit_zero (S := S8x2048) hz2, View.ld_unit_zero (S := S8x1) hz2]

end Cert.KernelIdeal.Pieces

end
-- ==== Proof.BodyValues.lean ====
/-
  The kernel body's arithmetic, read at an index over the extended reals.

  One grid point holds a batch tile of 8 batches, all 2048 points of `p` and one tile of 128 points
  of `q`. Its distance block at (r, n, l) is the distance between point n of `p` and point l of the
  tile, in batch row r; the row-minimum update takes, at (r, n), the minimum of the old value and the
  block's minimum over l; the column minima take, at (r, l), the block's minimum over n; the sum
  update adds half the sum over l of the column minima; the finish adds half the sum over n of the
  row minima.
-/
import proofs.«154661_j49727131353178_1_alg».proof.Proof.Gen.KernelIdeal.Skeleton
import proofs.«154661_j49727131353178_1_alg».proof.Proof.ChamferSpec
import proofs.«154661_j49727131353178_1_alg».proof.Proof.LibAxisFolds
import Idealize.ShloMosaic.Lib.Pipeline.Value
import Idealize.ShloMosaic.Lib.ValueIdx

noncomputable section

namespace Cert.KernelIdeal.BodyValues

open Cert.KernelIdeal Cert.KernelIdeal.Gen
open Idealize.ShloMosaic Idealize.ShloMosaic.ValueIdx Cert.Chamfer

/-! ## Layout steps at an index, over literal ranks and variable extents -/

/-- The spatial slice `[..., 1:4]` read at (r, n, k) is the array at (r, n, 1 + k). -/
theorem slice_apply {N : ℕ} (x : (⟨3, ![8, N, 4]⟩ : Shape).Idx → EReal)
    (h : (⟨3, ![8, N, 4]⟩ : Shape).Slices ![0, 0, 1] ⟨3, ![8, N, 3]⟩) (r : Fin 8) (n : Fin N) (k : Fin 3) :
    extractStridedSlice ⟨3, ![8, N, 3]⟩ ![0, 0, 1] x h (ix3 r n k) = x (ix3 r n (coord k)) :=
  extractStridedSlice_apply ![0, 0, 1] x h (ix3 r n k) (ix3 r n (coord k)) (fun a => match a with
    | ⟨0, _⟩ => by show r.val = 0 + r.val; omega
    | ⟨1, _⟩ => by show n.val = 0 + n.val; omega
    | ⟨2, _⟩ => by show 1 + k.val = 1 + k.val; rfl)

/-- The index over (r, n) with coordinate k inserted on the last axis. -/
theorem lift_last {N K : ℕ} (h : (⟨3, ![8, N, K]⟩ : Shape).Reduces [2] ⟨2, ![8, N]⟩) (r : Fin 8) (n : Fin N)
    (k : Fin ((⟨3, ![8, N, K]⟩ : Shape).size 2)) : h.lift (ix2 r n) k = ix3 r n (k.cast rfl) :=
  funext fun a => Fin.ext (by match a with | ⟨0, _⟩ => rfl | ⟨1, _⟩ => rfl | ⟨2, _⟩ => rfl)

/-- The index over (r, l) with coordinate n inserted on the middle axis. -/
theorem lift_mid {N K : ℕ} (h : (⟨3, ![8, N, K]⟩ : Shape).Reduces [1] ⟨2, ![8, K]⟩) (r : Fin 8) (l : Fin K)
    (n : Fin ((⟨3, ![8, N, K]⟩ : Shape).size 1)) : h.lift (ix2 r l) n = ix3 r (n.cast rfl) l :=
  funext fun a => Fin.ext (by match a with | ⟨0, _⟩ => rfl | ⟨1, _⟩ => rfl | ⟨2, _⟩ => rfl)

/-- The index over (r) with coordinate l inserted on the last axis of a rank-2 shape. -/
theorem lift_row {K : ℕ} (h : (⟨2, ![8, K]⟩ : Shape).Reduces [1] ⟨1, ![8]⟩) (r : Fin 8)
    (l : Fin ((⟨2, ![8, K]⟩ : Shape).size 1)) : h.lift (ix1 r) l = ix2 r (l.cast rfl) :=
  funext fun a => Fin.ext (by match a with | ⟨0, _⟩ => rfl | ⟨1, _⟩ => rfl)

/-- The squared length of a point: the lane sum of the slice's squares. -/
theorem sumsq_apply {N : ℕ} (s : FVec Ideal ⟨3, ![8, N, 3]⟩ .f32) (acc : BitVec 32)
    (h : (⟨3, ![8, N, 3]⟩ : Shape).Reduces [2] ⟨2, ![8, N]⟩) (hφ : FKind.Formats .f32)
    (hacc : acc = FKind.add.neutral .f32 hφ) (r : Fin 8) (n : Fin N) :
    multiReduction .add [2] ⟨2, ![8, N]⟩ (mulf s s) acc h hφ hacc (ix2 r n) = ∑ k : Fin 3, s (ix3 r n k) * s (ix3 r n k) :=
  Cert.LibAxisFolds.multiReduction_add_single _ acc h hφ hacc (ix2 r n) 3 rfl (fun k => s (ix3 r n k) * s (ix3 r n k))
    (fun k => by rw [lift_last]; rfl)

/-- A per-(r, n) value made a column and broadcast along the last axis. -/
theorem bcast_rows_apply {α : Type} {N M : ℕ} (v : (⟨2, ![8, N]⟩ : Shape).Idx → α)
    (h1 : (⟨2, ![8, N]⟩ : Shape).ShapeCasts ⟨3, ![8, N, 1]⟩) (h2 : (⟨3, ![8, N, 1]⟩ : Shape).Broadcasts ⟨3, ![8, N, M]⟩)
    (hN : N ≠ 1) (r : Fin 8) (n : Fin N) (l : Fin M) :
    broadcastTo ⟨3, ![8, N, M]⟩ (shapeCast ⟨3, ![8, N, 1]⟩ v h1) h2 (ix3 r n l) = v (ix2 r n) := by
  refine (broadcastTo_apply _ h2 (ix3 r n l) (ix3 r n (0 : Fin 1)) (fun a => match a with
    | ⟨0, _⟩ => by show r.val = if (8 : ℕ) = 1 then 0 else r.val; rw [if_neg (by decide)]
    | ⟨1, _⟩ => by show n.val = if N = 1 then 0 else n.val; rw [if_neg hN]
    | ⟨2, _⟩ => by show 0 = if (1 : ℕ) = 1 then 0 else l.val; rw [if_pos rfl])).trans ?_
  refine shapeCast_apply v h1 (ix3 r n (0 : Fin 1)) (ix2 r n) ?_
  rw [Shape.rowMajor_val_two, Shape.rowMajor_val_three]
  show r.val * N + n.val = (r.val * N + n.val) * 1 + 0
  omega

/-- A per-(r, l) value made a row and broadcast along the middle axis. -/
theorem bcast_cols_apply {α : Type} {N M : ℕ} (v : (⟨2, ![8, M]⟩ : Shape).Idx → α)
    (h1 : (⟨2, ![8, M]⟩ : Shape).ShapeCasts ⟨3, ![8, 1, M]⟩) (h2 : (⟨3, ![8, 1, M]⟩ : Shape).Broadcasts ⟨3, ![8, N, M]⟩)
    (hM : M ≠ 1) (r : Fin 8) (n : Fin N) (l : Fin M) :
    broadcastTo ⟨3, ![8, N, M]⟩ (shapeCast ⟨3, ![8, 1, M]⟩ v h1) h2 (ix3 r n l) = v (ix2 r l) := by
  refine (broadcastTo_apply _ h2 (ix3 r n l) (ix3 r (0 : Fin 1) l) (fun a => match a with
    | ⟨0, _⟩ => by show r.val = if (8 : ℕ) = 1 then 0 else r.val; rw [if_neg (by decide)]
    | ⟨1, _⟩ => by show 0 = if (1 : ℕ) = 1 then 0 else n.val; rw [if_pos rfl]
    | ⟨2, _⟩ => by show l.val = if M = 1 then 0 else l.val; rw [if_neg hM])).trans ?_
  refine shapeCast_apply v h1 (ix3 r (0 : Fin 1) l) (ix2 r l) ?_
  rw [Shape.rowMajor_val_two, Shape.rowMajor_val_three]
  show r.val * M + l.val = (r.val * 1 + 0) * M + l.val
  rw [Nat.mul_one, Nat.add_zero]

/-- A per-r value made a column of one lane. -/
theorem col_apply {α : Type} (v : (⟨1, ![8]⟩ : Shape).Idx → α) (h : (⟨1, ![8]⟩ : Shape).ShapeCasts ⟨2, ![8, 1]⟩)
    (r : Fin 8) (z : Fin 1) : shapeCast ⟨2, ![8, 1]⟩ v h (ix2 r z) = v (ix1 r) := by
  refine shapeCast_apply v h (ix2 r z) (ix1 r) ?_
  rw [Shape.rowMajor_val_one, Shape.rowMajor_val_two]
  show r.val = r.val * 1 + z.val
  have := z.isLt; omega

theorem sqrt_apply {s : Shape} (a : FVec Ideal s .f32) (i : s.Idx) : sqrt a i = Ideal.sqrt (a i) := rfl

/-! ## The batched product of the spatial parts -/

theorem lhs_0 (i : S8x2048x128.Idx) (q : dot_S8x2048x3_S8x128x3_S8x2048x128_2_2_1_1_0_0.contr.Idx) :
    (dot_S8x2048x3_S8x128x3_S8x2048x128_2_2_1_1_0_0.lhsIdx i q 0).val = (i 0).val := by
  unfold DotDims.lhsIdx
  rw [dif_pos (show (0 : Fin S8x2048x3.rank) ∈ dot_S8x2048x3_S8x128x3_S8x2048x128_2_2_1_1_0_0.lhsBatch by decide)]
  rfl
theorem lhs_1 (i : S8x2048x128.Idx) (q : dot_S8x2048x3_S8x128x3_S8x2048x128_2_2_1_1_0_0.contr.Idx) :
    (dot_S8x2048x3_S8x128x3_S8x2048x128_2_2_1_1_0_0.lhsIdx i q 1).val = (i 1).val := by
  unfold DotDims.lhsIdx
  rw [dif_neg (show ¬(1 : Fin S8x2048x3.rank) ∈ dot_S8x2048x3_S8x128x3_S8x2048x128_2_2_1_1_0_0.lhsBatch by decide), dif_pos (show (1 : Fin S8x2048x3.rank) ∈ dot_S8x2048x3_S8x128x3_S8x2048x128_2_2_1_1_0_0.lhsNonContracting by decide)]
  rfl
theorem lhs_2 (i : S8x2048x128.Idx) (q : dot_S8x2048x3_S8x128x3_S8x2048x128_2_2_1_1_0_0.contr.Idx) :
    (dot_S8x2048x3_S8x128x3_S8x2048x128_2_2_1_1_0_0.lhsIdx i q 2).val = (q ⟨0, by decide⟩).val :=
  dot_S8x2048x3_S8x128x3_S8x2048x128_2_2_1_1_0_0.lhsIdx_val_of_single rfl i q
theorem rhs_0 (i : S8x2048x128.Idx) (q : dot_S8x2048x3_S8x128x3_S8x2048x128_2_2_1_1_0_0.contr.Idx) :
    (dot_S8x2048x3_S8x128x3_S8x2048x128_2_2_1_1_0_0.rhsIdx i q 0).val = (i 0).val := by
  unfold DotDims.rhsIdx
  rw [dif_pos (show (0 : Fin S8x128x3.rank) ∈ dot_S8x2048x3_S8x128x3_S8x2048x128_2_2_1_1_0_0.rhsBatch by decide)]
  rfl
theorem rhs_1 (i : S8x2048x128.Idx) (q : dot_S8x2048x3_S8x128x3_S8x2048x128_2_2_1_1_0_0.contr.Idx) :
    (dot_S8x2048x3_S8x128x3_S8x2048x128_2_2_1_1_0_0.rhsIdx i q 1).val = (i 2).val := by
  unfold DotDims.rhsIdx
  rw [dif_neg (show ¬(1 : Fin S8x128x3.rank) ∈ dot_S8x2048x3_S8x128x3_S8x2048x128_2_2_1_1_0_0.rhsBatch by decide), dif_pos (show (1 : Fin S8x128x3.rank) ∈ dot_S8x2048x3_S8x128x3_S8x2048x128_2_2_1_1_0_0.rhsNonContracting by decide)]
  rfl
theorem rhs_2 (i : S8x2048x128.Idx) (q : dot_S8x2048x3_S8x128x3_S8x2048x128_2_2_1_1_0_0.contr.Idx) :
    (dot_S8x2048x3_S8x128x3_S8x2048x128_2_2_1_1_0_0.rhsIdx i q 2).val = (q ⟨0, by decide⟩).val :=
  dot_S8x2048x3_S8x128x3_S8x2048x128_2_2_1_1_0_0.rhsIdx_val_of_single rfl i q

/-- The kernel's batched matrix product into a zero accumulator, at (r, n, l): the inner product of
    row (r, n) of the left operand with row (r, l) of the right. -/
theorem matmul_apply (u : FVec Ideal S8x2048x3 .f32) (v : FVec Ideal S8x128x3 .f32) (r : Fin 8) (n : Fin 2048) (l : Fin 128) :
    matmul dot_S8x2048x3_S8x128x3_S8x2048x128_2_2_1_1_0_0 none u v (constant S8x2048x128 .f32 0x00000000#32) (ix3 r n l)
      = ∑ k : Fin 3, u (ix3 r n k) * v (ix3 r l k) := by
  simp only [matmul]
  rw [Ideal.matmul_constant_zero_apply, ← Equiv.sum_comp (ValueIdx.contrEquiv1 dot_S8x2048x3_S8x128x3_S8x2048x128_2_2_1_1_0_0 3 rfl rfl).symm]
  refine Finset.sum_congr rfl fun k _ => ?_
  have hk := ValueIdx.contrEquiv1_symm_val dot_S8x2048x3_S8x128x3_S8x2048x128_2_2_1_1_0_0 3 rfl rfl k
  have el : dot_S8x2048x3_S8x128x3_S8x2048x128_2_2_1_1_0_0.lhsIdx (ix3 r n l) ((ValueIdx.contrEquiv1 dot_S8x2048x3_S8x128x3_S8x2048x128_2_2_1_1_0_0 3 rfl rfl).symm k) = ix3 r n k := funext fun a => Fin.ext (by
    match a with
    | ⟨0, _⟩ => exact lhs_0 _ _
    | ⟨1, _⟩ => exact lhs_1 _ _
    | ⟨2, _⟩ => exact (lhs_2 _ _).trans hk)
  have er : dot_S8x2048x3_S8x128x3_S8x2048x128_2_2_1_1_0_0.rhsIdx (ix3 r n l) ((ValueIdx.contrEquiv1 dot_S8x2048x3_S8x128x3_S8x2048x128_2_2_1_1_0_0 3 rfl rfl).symm k) = ix3 r l k := funext fun a => Fin.ext (by
    match a with
    | ⟨0, _⟩ => exact rhs_0 _ _
    | ⟨1, _⟩ => exact rhs_1 _ _
    | ⟨2, _⟩ => exact (rhs_2 _ _).trans hk)
  rw [el, er]

/-! ## The payloads at an index -/

/-- The distance block: at (r, n, l) the distance between point n of the `p` block and point l of the
    `q` tile, in batch row r. -/
theorem dist_apply (x0 : Vec Ideal S8x2048x4 .f32) (x1 : Vec Ideal S8x128x4 .f32) (r : Fin 8) (n : Fin 2048) (l : Fin 128) :
    k0_pay3 (F := Ideal) x0 x1 (ix3 r n l)
      = dcore (fun k => x0 (ix3 r n (coord k))) (fun k => x1 (ix3 r l (coord k))) := by
  unfold k0_pay3
  simp only [sqrt_apply, addf_apply, maximumf_apply, subf_apply, mulf_apply, broadcast_apply]
  rw [bcast_rows_apply _ _ _ (by decide), bcast_cols_apply _ _ _ (by decide)]
  unfold dcore sq3 dot3
  refine congrArg Ideal.sqrt (congrArg₂ (· + ·) (congrArg₂ max (congrArg₂ (· - ·) (congrArg₂ (· + ·) ?_ ?_)
    (congrArg₂ (· * ·) rfl ?_)) rfl) rfl)
  · exact (sumsq_apply _ _ _ _ _ r n).trans (Finset.sum_congr rfl fun k _ => by rw [slice_apply])
  · exact (sumsq_apply _ _ _ _ _ r l).trans (Finset.sum_congr rfl fun k _ => by rw [slice_apply])
  · exact (matmul_apply _ _ r n l).trans (Finset.sum_congr rfl fun k _ => by rw [slice_apply, slice_apply])

/-- The row-minimum update at (r, n): the old value against the block's minimum over the tile. -/
theorem updMin_apply (x0 : Vec Ideal S8x2048x4 .f32) (x1 : Vec Ideal S8x128x4 .f32) (old : Vec Ideal S8x2048 .f32)
    (r : Fin 8) (n : Fin 2048) :
    k0_pay6 (F := Ideal) x0 x1 old (ix2 r n)
      = min (old (ix2 r n)) ((Finset.univ : Finset (Fin 128)).fold min pinf (fun l => k0_pay3 (F := Ideal) x0 x1 (ix3 r n l))) := by
  unfold k0_pay6
  simp only [shapeCast_self, minimumf_apply]
  refine congrArg (min (old (ix2 r n))) ?_
  exact Cert.LibAxisFolds.multiReduction_min_single _ _ _ _ _ (ix2 r n) 128 rfl
    (fun l => k0_pay3 (F := Ideal) x0 x1 (ix3 r n l)) (fun l => by rw [lift_last]; rfl)

/-- The column minima at (r, l): the block's minimum over all points of `p`. -/
theorem colMin_apply (x0 : Vec Ideal S8x2048x4 .f32) (x1 : Vec Ideal S8x128x4 .f32) (r : Fin 8) (l : Fin 128) :
    k0_pay7 (F := Ideal) x0 x1 (ix2 r l)
      = (Finset.univ : Finset (Fin 2048)).fold min pinf (fun n => k0_pay3 (F := Ideal) x0 x1 (ix3 r n l)) := by
  unfold k0_pay7
  exact Cert.LibAxisFolds.multiReduction_min_single _ _ _ _ _ (ix2 r l) 2048 rfl
    (fun n => k0_pay3 (F := Ideal) x0 x1 (ix3 r n l)) (fun n => by rw [lift_mid]; rfl)

/-- The sum update at row r: the old sum plus half the sum of the tile's column minima. -/
theorem updSum_apply (cm : FVec Ideal S8x128 .f32) (old : Vec Ideal S8x1 .f32) (r : Fin 8) (z : Fin 1) :
    k0_pay1 (F := Ideal) cm old (ix2 r z) = old (ix2 r z) + half * ∑ l : Fin 128, cm (ix2 r l) := by
  unfold k0_pay1
  simp only [shapeCast_self, addf_apply, mulf_apply, broadcast_apply]
  rw [col_apply]
  refine congrArg (fun t => old (ix2 r z) + half * t) ?_
  exact Cert.LibAxisFolds.multiReduction_add_single _ _ _ _ _ (ix1 r) 128 rfl (fun l => cm (ix2 r l))
    (fun l => by rw [lift_row]; rfl)

/-- The finish at row r: the running sum plus half the sum of the row minima. -/
theorem finish_apply (s : Vec Ideal S8x1 .f32) (mn : Vec Ideal S8x2048 .f32) (r : Fin 8) (z : Fin 1) :
    k0_pay2 (F := Ideal) s mn (ix2 r z) = s (ix2 r z) + half * ∑ n : Fin 2048, mn (ix2 r n) := by
  unfold k0_pay2
  simp only [shapeCast_self, addf_apply, mulf_apply, broadcast_apply]
  rw [col_apply]
  refine congrArg (fun t => s (ix2 r z) + half * t) ?_
  exact Cert.LibAxisFolds.multiReduction_add_single _ _ _ _ _ (ix1 r) 2048 rfl (fun n => mn (ix2 r n))
    (fun n => by rw [lift_row]; rfl)

/-- The reset values: `+∞` for the row minima, `0` for the sums. -/
theorem resetMin_apply (j : S8x2048.Idx) : k0_pay4 (F := Ideal) j = pinf := by
  unfold k0_pay4; simp only [shapeCast_self, broadcast_apply]; rfl

theorem resetSum_apply (j : S8x1.Idx) : k0_pay5 (F := Ideal) j = zer := by
  unfold k0_pay5; simp only [shapeCast_self, broadcast_apply]; rfl

end Cert.KernelIdeal.BodyValues

end
-- ==== Proof.RunningValues.lean ====
/-
  What the two carried scratch buffers hold after each grid point, and what the last point of each
  batch tile writes out.

  The grid walks 8 batch tiles (of 8 batches) by 16 key tiles (of 128 points of `q`); point `t` is
  batch tile `t / 16`, key tile `t % 16`. After the point, at batch row r (batch `8·(t/16) + r`):
    · the row-minimum scratch holds, for each point n of `p`, the minimum of the distance over the
      first `t % 16 + 1` key tiles;
    · the sum scratch holds the sum over those tiles of half each tile's sum of column minima
      (until the last tile's finish, which adds half the sum of the row minima and is written out).
  Both by induction on the point: the first tile starts from the reset values, every later tile from
  what the point before left.
-/
import proofs.«154661_j49727131353178_1_alg».proof.Proof.BodyCases
import proofs.«154661_j49727131353178_1_alg».proof.Proof.BodyValues

noncomputable section

namespace Cert.KernelIdeal.Running

open Cert.KernelIdeal Cert.KernelIdeal.Gen Cert.KernelIdeal.Pieces Cert.KernelIdeal.BodyValues
open Idealize.ShloMosaic Idealize.ShloMosaic.TcCoe Idealize.SL.Sem Idealize.ShloMosaic.ValueIdx Cert.Chamfer
open Idealize.ShloMosaic.Pipeline (Dat)

variable (m : (ℓ : Loc nD τ sig) → Buf (Elt Ideal) ℓ)

/-- The two argument arrays as the region finds them, and the two input blocks at a point, at their
    literal types. -/
abbrev parr (c : Dev nD) : Vec Ideal S64x2048x4 .f32 := V m c main_arg0
abbrev qarr (c : Dev nD) : Vec Ideal S64x2048x4 .f32 := V m c main_arg1
abbrev pblk (c : Dev nD) (t : Fin cfg0.N) : Vec Ideal S8x2048x4 .f32 := iblk m c 0 t
abbrev qblk (c : Dev nD) (t : Fin cfg0.N) : Vec Ideal S8x128x4 .f32 := iblk m c 1 t

/-- The batch of row `r` at point `n`: `8 · (n / 16) + r`. -/
def brow (n : ℕ) (r : Fin 8) : Fin 64 := ⟨(8 * (n / 16) + r.val) % 64, Nat.mod_lt _ (by decide)⟩
/-- The column of lane `l` of the key tile at point `n`: `128 · (n % 16) + l`. -/
def mcol (n : ℕ) (l : Fin 128) : Fin 2048 := ⟨128 * (n % 16) + l.val, by have := l.isLt; omega⟩

theorem lt128 (t : Fin cfg0.N) : t.val < 128 := lt_of_lt_of_eq t.isLt (show cfg0.N = 128 from N_0)

/-- The printed index maps over the grid: the `p` window and the output move with the batch tile,
    the `q` window with both. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = t.val / 16 ∧ win0_2.index t (1 : Fin 2) = 0 :=
  (by decide +kernel : ∀ t : Fin grid0.N, _)

/-- The `p` block at a point reads the array at the batch tile's rows. -/
theorem pblk_apply (c : Dev nD) (t : Fin cfg0.N) (r : Fin 8) (n : Fin 2048) (d : Fin 4) :
    pblk m c t (ix3 r n d) = parr m c (ix3 (brow t.val r) n d) := by
  obtain ⟨e0, e1, e2, -⟩ := idx_facts t
  have hN := lt128 t
  show iblk m c 0 t (ix3 r n d) = _
  unfold iblk
  rw [View.read_apply]
  show V m c main_arg0 _ = V m c main_arg0 _
  refine congrArg (V m c main_arg0) (funext fun a => Fin.ext ?_)
  match a with
  | ⟨0, _⟩ => show win0_0.index t (0 : Fin 3) * 8 + 1 * r.val = (8 * (t.val / 16) + r.val) % 64; have := r.isLt; omega
  | ⟨1, _⟩ => show win0_0.index t (1 : Fin 3) * 2048 + 1 * n.val = n.val; omega
  | ⟨2, _⟩ => show win0_0.index t (2 : Fin 3) * 4 + 1 * d.val = d.val; omega

/-- The `q` block at a point reads the array at the batch tile's rows and the key tile's columns. -/
theorem qblk_apply (c : Dev nD) (t : Fin cfg0.N) (r : Fin 8) (l : Fin 128) (d : Fin 4) :
    qblk m c t (ix3 r l d) = qarr m c (ix3 (brow t.val r) (mcol t.val l) d) := by
  obtain ⟨-, -, -, e0, e1, e2, -⟩ := idx_facts t
  have hN := lt128 t
  show iblk m c 1 t (ix3 r l d) = _
  unfold iblk
  rw [View.read_apply]
  show V m c main_arg1 _ = V m c main_arg1 _
  refine congrArg (V m c main_arg1) (funext fun a => Fin.ext ?_)
  match a with
  | ⟨0, _⟩ => show win0_1.index t (0 : Fin 3) * 8 + 1 * r.val = (8 * (t.val / 16) + r.val) % 64; have := r.isLt; omega
  | ⟨1, _⟩ => show win0_1.index t (1 : Fin 3) * 128 + 1 * l.val = 128 * (t.val % 16) + l.val; omega
  | ⟨2, _⟩ => show win0_1.index t (2 : Fin 3) * 4 + 1 * d.val = d.val; omega

/-! ## One key tile -/

/-- The point's distance block is the distance array at the batch tile's rows and the key tile's columns. -/
theorem tile_dist (c : Dev nD) (t : Fin cfg0.N) (r : Fin 8) (nn : Fin 2048) (l : Fin 128) :
    k0_pay3 (F := Ideal) (pblk m c t) (qblk m c t) (ix3 r nn l)
      = DN (parr m c) (qarr m c) (brow t.val r) nn (128 * (t.val % 16) + l.val) := by
  refine (dist_apply (pblk m c t) (qblk m c t) r nn l).trans ?_
  refine Eq.trans ?_ (dif_pos (mcol t.val l).isLt).symm
  show _ = dcore (vec3 (parr m c) (brow t.val r) nn) (vec3 (qarr m c) (brow t.val r) (mcol t.val l))
  refine congrArg₂ dcore (funext fun k => ?_) (funext fun k => ?_)
  · exact pblk_apply m c t r nn (coord k)
  · exact qblk_apply m c t r l (coord k)

/-- The point's column minima are the array's, at the key tile's columns. -/
theorem tile_colmin (c : Dev nD) (t : Fin cfg0.N) (r : Fin 8) (l : Fin 128) :
    k0_pay7 (F := Ideal) (pblk m c t) (qblk m c t) (ix2 r l)
      = colminN (parr m c) (qarr m c) (brow t.val r) (128 * (t.val % 16) + l.val) := by
  refine (colMin_apply (pblk m c t) (qblk m c t) r l).trans ?_
  refine Eq.trans ?_ (dif_pos (mcol t.val l).isLt).symm
  show _ = (Finset.univ : Finset (Fin 2048)).fold min pinf (fun nn => D (parr m c) (qarr m c) (brow t.val r) nn (mcol t.val l))
  refine congrArg (fun f => Finset.fold min pinf f Finset.univ) (funext fun nn => ?_)
  exact (tile_dist m c t r nn l).trans (dif_pos (mcol t.val l).isLt)

/-- One more key tile for the row minima. -/
theorem step_min (c : Dev nD) (t : Fin cfg0.N) (old : Vec Ideal S8x2048 .f32)
    (hold : ∀ r nn, old (ix2 r nn) = rowminUpTo (parr m c) (qarr m c) (brow t.val r) nn (t.val % 16))
    (r : Fin 8) (nn : Fin 2048) :
    k0_pay6 (F := Ideal) (pblk m c t) (qblk m c t) old (ix2 r nn)
      = rowminUpTo (parr m c) (qarr m c) (brow t.val r) nn (t.val % 16 + 1) := by
  refine (updMin_apply (pblk m c t) (qblk m c t) old r nn).trans ?_
  rw [rowminUpTo_succ, hold r nn]
  refine congrArg (min _) (congrArg (fun f => Finset.fold min pinf f Finset.univ) (funext fun l => ?_))
  exact tile_dist m c t r nn l

/-- One more key tile for the running sum. -/
theorem step_sum (c : Dev nD) (t : Fin cfg0.N) (old : Vec Ideal S8x1 .f32)
    (hold : ∀ r z, old (ix2 r z) = colsumUpTo (parr m c) (qarr m c) (brow t.val r) (t.val % 16))
    (r : Fin 8) (z : Fin 1) :
    k0_pay1 (F := Ideal) (k0_pay7 (F := Ideal) (pblk m c t) (qblk m c t)) old (ix2 r z)
      = colsumUpTo (parr m c) (qarr m c) (brow t.val r) (t.val % 16 + 1) := by
  refine (updSum_apply (k0_pay7 (F := Ideal) (pblk m c t) (qblk m c t)) old r z).trans ?_
  rw [colsumUpTo_succ, hold r z]
  refine congrArg (fun s => _ + half * s) (Finset.sum_congr rfl fun l _ => ?_)
  exact tile_colmin m c t r l

/-! ## The carried scratch, point by point -/

/-- What the scratch buffers hold after point `n`. -/
def Inv (c : Dev nD) (n : ℕ) (h : n < cfg0.N) : Prop :=
  (∀ (r : Fin 8) (nn : Fin 2048), (outsAt0 m c n h).2.1 (ix2 r nn)
      = rowminUpTo (parr m c) (qarr m c) (brow n r) nn (n % 16 + 1))
  ∧ (n % 16 ≠ 15 → ∀ (r : Fin 8) (z : Fin 1), (outsAt0 m c n h).2.2 (ix2 r z)
      = colsumUpTo (parr m c) (qarr m c) (brow n r) (n % 16 + 1))

/-- What the point before `t` left. -/
abbrev prevOuts (c : Dev nD) (t : Fin cfg0.N) : Vec Ideal S8x1 .f32 × Vec Ideal S8x2048 .f32 × Vec Ideal S8x1 .f32 :=
  outsAt0 m c (t.val - 1) (Nat.lt_of_le_of_lt (Nat.sub_le _ _) t.isLt)

/-- What the point before a later tile left, restated at this point's batch and tile count. -/
theorem prev_min (c : Dev nD) (t : Fin cfg0.N) (h0 : ¬t.val % 16 = 0)
    (ih : Inv m c (t.val - 1) (Nat.lt_of_le_of_lt (Nat.sub_le _ _) t.isLt)) (r : Fin 8) (nn : Fin 2048) :
    (prevOuts m c t).2.1 (ix2 r nn) = rowminUpTo (parr m c) (qarr m c) (brow t.val r) nn (t.val % 16) := by
  have e1 : (t.val - 1) % 16 + 1 = t.val % 16 := by omega
  have e2 : brow (t.val - 1) r = brow t.val r := Fin.ext (by
    show (8 * ((t.val - 1) / 16) + r.val) % 64 = (8 * (t.val / 16) + r.val) % 64; omega)
  rw [← e1, ← e2]; exact ih.1 r nn

theorem prev_sum (c : Dev nD) (t : Fin cfg0.N) (h0 : ¬t.val % 16 = 0)
    (ih : Inv m c (t.val - 1) (Nat.lt_of_le_of_lt (Nat.sub_le _ _) t.isLt)) (r : Fin 8) (z : Fin 1) :
    (prevOuts m c t).2.2 (ix2 r z) = colsumUpTo (parr m c) (qarr m c) (brow t.val r) (t.val % 16) := by
  have e1 : (t.val - 1) % 16 + 1 = t.val % 16 := by omega
  have e2 : brow (t.val - 1) r = brow t.val r := Fin.ext (by
    show (8 * ((t.val - 1) / 16) + r.val) % 64 = (8 * (t.val / 16) + r.val) % 64; omega)
  rw [← e1, ← e2]; exact ih.2 (by omega) r z

/-- The first key tile of a batch tile: from the reset values. -/
theorem inv_first (c : Dev nD) (t : Fin cfg0.N) (h0 : t.val % 16 = 0) : Inv m c t.val t.isLt := by
  have h1 : ¬t.val % 16 = 15 := by omega
  refine ⟨fun r nn => ?_, fun _ r z => ?_⟩
  · rw [outsAt0_A m c t h0 h1]; dsimp only
    refine (congrFun (first_min (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (pblk m c t) (qblk m c t)) (ix2 r nn)).trans ?_
    exact step_min m c t (k0_pay4 (F := Ideal)) (fun r nn => by rw [resetMin_apply, h0, rowminUpTo_zero]) r nn
  · rw [outsAt0_A m c t h0 h1]; dsimp only
    refine (congrFun (first_sum (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (pblk m c t) (qblk m c t)) (ix2 r z)).trans ?_
    exact step_sum m c t (k0_pay5 (F := Ideal)) (fun r z => by rw [resetSum_apply, h0, colsumUpTo_zero, zer_eq]) r z

/-- A middle key tile: from what the point before left. -/
theorem inv_middle (c : Dev nD) (t : Fin cfg0.N) (h0 : ¬t.val % 16 = 0) (h1 : ¬t.val % 16 = 15)
    (ih : Inv m c (t.val - 1) (Nat.lt_of_le_of_lt (Nat.sub_le _ _) t.isLt)) : Inv m c t.val t.isLt := by
  refine ⟨fun r nn => ?_, fun _ r z => ?_⟩
  · rw [outsAt0_B m c t h0 h1]; dsimp only
    refine (congrFun (middle_min (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (pblk m c t) (qblk m c t) (prevOuts m c t).2.1 (prevOuts m c t).2.2) (ix2 r nn)).trans ?_
    exact step_min m c t (prevOuts m c t).2.1 (prev_min m c t h0 ih) r nn
  · rw [outsAt0_B m c t h0 h1]; dsimp only
    refine (congrFun (middle_sum (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (pblk m c t) (qblk m c t) (prevOuts m c t).2.1 (prevOuts m c t).2.2) (ix2 r z)).trans ?_
    exact step_sum m c t (prevOuts m c t).2.2 (prev_sum m c t h0 ih) r z

/-- The last key tile: the row minima as in the middle (the sum scratch is finished and written out). -/
theorem inv_last (c : Dev nD) (t : Fin cfg0.N) (h0 : ¬t.val % 16 = 0) (h1 : t.val % 16 = 15)
    (ih : Inv m c (t.val - 1) (Nat.lt_of_le_of_lt (Nat.sub_le _ _) t.isLt)) : Inv m c t.val t.isLt := by
  refine ⟨fun r nn => ?_, fun h => absurd h1 h⟩
  rw [outsAt0_C m c t h0 h1]; dsimp only
  refine (congrFun (last_min (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (pblk m c t) (qblk m c t) (prevOuts m c t).2.1 (prevOuts m c t).2.2) (ix2 r nn)).trans ?_
  exact step_min m c t (prevOuts m c t).2.1 (prev_min m c t h0 ih) r nn

/-- The scratch buffers after every point. -/
theorem inv (c : Dev nD) : ∀ (n : ℕ) (h : n < cfg0.N), Inv m c n h
  | 0, h => inv_first m c ⟨0, h⟩ rfl
  | n + 1, h => by
    by_cases h0 : (n + 1) % 16 = 0
    · exact inv_first m c ⟨n + 1, h⟩ h0
    · by_cases h1 : (n + 1) % 16 = 15
      · exact inv_last m c ⟨n + 1, h⟩ h0 h1 (inv c n (Nat.lt_of_succ_lt h))
      · exact inv_middle m c ⟨n + 1, h⟩ h0 h1 (inv c n (Nat.lt_of_succ_lt h))

/-- What the last key tile of a batch tile writes out: per batch row, the tiled arrangement's value. -/
theorem out_last (c : Dev nD) (t : Fin cfg0.N) (h1 : t.val % 16 = 15) (r : Fin 8) (z : Fin 1) :
    (outsAt0 m c t.val t.isLt).1 (ix2 r z) = kerOut (parr m c) (qarr m c) (brow t.val r) := by
  have h0 : ¬t.val % 16 = 0 := by omega
  have ih : Inv m c (t.val - 1) (Nat.lt_of_le_of_lt (Nat.sub_le _ _) t.isLt) := inv m c _ _
  rw [outsAt0_C m c t h0 h1]; dsimp only
  refine (congrFun (last_out (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (pblk m c t) (qblk m c t) (prevOuts m c t).2.1 (prevOuts m c t).2.2) (ix2 r z)).trans ?_
  refine (finish_apply _ _ r z).trans ?_
  have e16 : t.val % 16 + 1 = 16 := by omega
  unfold kerOut
  refine congrArg₂ (· + ·) ?_ (congrArg (half * ·) (Finset.sum_congr rfl fun nn _ => ?_))
  · exact (step_sum m c t (prevOuts m c t).2.2 (prev_sum m c t h0 ih) r z).trans (by rw [e16])
  · exact (step_min m c t (prevOuts m c t).2.1 (prev_min m c t h0 ih) r nn).trans (by rw [e16, rowminUpTo_all])

end Cert.KernelIdeal.Running

end
-- ==== Proof.KernelValue.lean ====
/-
  The kernel program's result at the extended reals: the per-batch array the pallas_call leaves,
  and the host sum over it.

  Output block `t / 16` (8 batch rows) is written back once, after the last key tile of its batch
  tile, and holds per row the tiled arrangement's value for that batch; the eight blocks tile the
  64-row result array. The host line after the call sums the array from zero: the loss in the tiled
  arrangement.
-/
import proofs.«154661_j49727131353178_1_alg».proof.Proof.RunningValues
import Idealize.ShloMosaic.Lib.StableHlo.Run

noncomputable section

namespace Cert.KernelIdeal.KValue

open Cert.KernelIdeal Cert.KernelIdeal.Gen Cert.KernelIdeal.Running
open Idealize.ShloMosaic Idealize.ShloMosaic.TcCoe Idealize.SL.Sem Idealize.ShloMosaic.ValueIdx Cert.Chamfer
open Idealize.ShloMosaic.Pipeline (Dat)

variable (m : (ℓ : Loc nD τ sig) → Buf (Elt Ideal) ℓ) (ρ : Dev nD → PrngReg)

/-- The per-batch values, as contents of the call's result array. -/
abbrev perBatch (c : Dev nD) : Buf (Elt Ideal) ((c : Thread nD τ).loc main_v0) :=
  fun i => kerOut (parr m c) (qarr m c) (i 0)

/-- What a write-back writes: the block of the per-batch values at the point's batch tile. -/
theorem flushed_eq (c : Dev nD) (t : Fin cfg0.N) (hf : (cfg0.win 2).flush t = true) :
    (dats m 0 c).flushed 2 t = ((cfg0.win 2).blk t).view.read (Elt Ideal) (perBatch m c) := by
  have h1 : t.val % 16 = 15 := (flush0_2 t).mp hf
  obtain ⟨-, -, -, -, -, -, e0, e1⟩ := idx_facts t
  have hN := lt128 t
  show (cfg0.win 2).cut (grid0.coords t) ((dats m 0 c).after 2 t) = _
  rw [after0_2]
  funext j
  obtain ⟨r, z, rfl⟩ : ∃ (r : Fin 8) (z : Fin 1), j = ix2 r z := ⟨j 0, j 1, eq_ix2 j⟩
  show (outsAt0 m c t.val t.isLt).1 (ix2 r z) = perBatch m c (((cfg0.win 2).blk t).view.emb (ix2 r z))
  refine (out_last m c t h1 r z).trans ?_
  refine congrArg (kerOut (parr m c) (qarr m c)) (Fin.ext ?_)
  show (8 * (t.val / 16) + r.val) % 64 = win0_2.index t (0 : Fin 2) * 8 + 1 * r.val
  have := r.isLt; omega

/-- Every row of the result array is in the block some write-back writes. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hlt : 16 * ((i 0).val / 8) + 15 < cfg0.N := by rw [show cfg0.N = 128 from N_0]; omega
  obtain ⟨-, -, -, -, -, -, e0, e1⟩ := idx_facts ⟨16 * ((i 0).val / 8) + 15, hlt⟩
  refine ⟨⟨16 * ((i 0).val / 8) + 15, hlt⟩, (flush0_2 _).mpr (by show (16 * ((i 0).val / 8) + 15) % 16 = 15; omega), ?_⟩
  show i ∈ ((View.whole main_v0).slice (win0_2.rect ⟨16 * ((i 0).val / 8) + 15, hlt⟩)).set
  rw [View.set_slice_whole, Rect.mem_set_unit]
  intro a
  have e0' : win0_2.index ⟨16 * ((i 0).val / 8) + 15, hlt⟩ (0 : Fin 2) = (16 * ((i 0).val / 8) + 15) / 16 := e0
  match a with
  | ⟨0, _⟩ =>
    show win0_2.index ⟨16 * ((i 0).val / 8) + 15, hlt⟩ (0 : Fin 2) * 8 ≤ (i 0).val
      ∧ (i 0).val < win0_2.index ⟨16 * ((i 0).val / 8) + 15, hlt⟩ (0 : Fin 2) * 8 + 8
    omega
  | ⟨1, _⟩ =>
    show win0_2.index ⟨16 * ((i 0).val / 8) + 15, hlt⟩ (1 : Fin 2) * 1 ≤ (i 1).val
      ∧ (i 1).val < win0_2.index ⟨16 * ((i 0).val / 8) + 15, hlt⟩ (1 : Fin 2) * 1 + 1
    omega

/-- The call's result array after the run: the per-batch values. -/
theorem final (c : Dev nD) : (dats m 0 c).arrAt 2 cfg0.N = perBatch m c :=
  (dats m 0 c).arrAt_eq_of_cover 2 (perBatch m c) (flushed_eq m c) (cover c)

/-- The host sum after the call: the loss in the tiled arrangement. -/
theorem tail_eq (c : Dev nD) :
    Pipeline.afterTail₀ cfgs (dats m) 0 (V0 m) [hostOps1] c main_v1 = fun _ => kerVal (parr m c) (qarr m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = perBatch m c := (Pipeline.withArrays_arr spec0 launch0.win.arr_inj c _ _ 2).trans (final m c)
  rw [e]
  funext i
  simp only [Host.reduceAdd, Ideal.hostReduceAdd_def]
  rw [Ideal.hostReduceAdd_total reducesTo_S64x1_S_d0_1 (fun b => b.elim0)]
  rfl

/-- The kernel program's run, read: its result at the loss in the tiled arrangement, its arguments unchanged. -/
theorem run : θ_run defs (onTc (τ := τ) (main (F := Ideal))) ⟨m, fun _ => 0, ρ⟩ fun r => ∀ c : Dev nD,
      r.2.mem ((c.tc : Thread nD τ).loc main_v1) = (fun _ => kerVal (parr m c) (qarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.lean ====
/-
  The Chamfer loss between two point clouds `p`, `q` : f32[64, 2048, 4], over the spatial coordinates
  1..3 of the last axis:
      ∑ b n, (min_m D b n m + min_k D b k n) · ½,   D b n m = sqrt (max (|p b n|² + |q b m|² − 2⟨p b n, q b m⟩) 0 + ε)
  (the first minimum runs over the points m of `q`, the second over the points k of `p`).
  The reference computes it as written. The kernel never forms the 2048 × 2048 distance matrix: per
  batch tile it walks the points of `q` in sixteen tiles of 128, keeps a running row minimum and a
  running half-sum of column minima in scratch, and at the last tile adds half the sum of the row
  minima; a host sum over the 64 per-batch values finishes.

  At the extended reals the two are one number: a minimum over all columns is the minimum of the
  tiles' minima; a column's minimum is taken whole inside its tile (all of `p` is resident); sums
  commute and associate; and multiplication by the nonnegative real ½ distributes over sums of
  extended reals. None of this needs the inputs finite, so the precondition is never opened.

  The three frames: the two kernel programs' are generated whole; the reference's is its generated
  run with the result dropped. The ideal pass rewrote nothing, so `preserves` is `True`.
-/
import proofs.«154661_j49727131353178_1_alg».proof.Defs
import proofs.«154661_j49727131353178_1_alg».proof.Proof.Gen.Kernel
import proofs.«154661_j49727131353178_1_alg».proof.Proof.Gen.Kernel.Skeleton
import proofs.«154661_j49727131353178_1_alg».proof.Proof.Gen.Kernel.Launch
import proofs.«154661_j49727131353178_1_alg».proof.Proof.Gen.Kernel.Points
import proofs.«154661_j49727131353178_1_alg».proof.Proof.Gen.Kernel.Frame
import proofs.«154661_j49727131353178_1_alg».proof.Proof.Gen.KernelIdeal
import proofs.«154661_j49727131353178_1_alg».proof.Proof.Gen.KernelIdeal.Skeleton
import proofs.«154661_j49727131353178_1_alg».proof.Proof.Gen.KernelIdeal.Launch
import proofs.«154661_j49727131353178_1_alg».proof.Proof.Gen.KernelIdeal.Points
import proofs.«154661_j49727131353178_1_alg».proof.Proof.Gen.KernelIdeal.Frame
import proofs.«154661_j49727131353178_1_alg».proof.Proof.Gen.ReferenceIdeal
import proofs.«154661_j49727131353178_1_alg».proof.Proof.Gen.Pre_finite_inputs
import proofs.«154661_j49727131353178_1_alg».proof.Proof.Gen.ReferenceIdeal.Run
import proofs.«154661_j49727131353178_1_alg».proof.Proof.Gen.ReferenceIdeal.Read
import proofs.«154661_j49727131353178_1_alg».proof.Proof.RefValue
import proofs.«154661_j49727131353178_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the same arrays: the kernel in the tiled arrangement, the
    reference as written; the two arrangements are one extended real. -/
theorem algebraic : Cert.algebraic_KernelIdeal_ReferenceIdeal := by
  intro m ρ m' ρ' _ hagree
  refine ⟨fun c => fun _ => Cert.Chamfer.kerVal (Cert.KernelIdeal.Running.parr m c) (Cert.KernelIdeal.Running.qarr m c),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.RefValue.result_eq, (hagree c).1, (hagree c).2]
  funext _
  exact (Cert.Chamfer.kerVal_eq_refVal _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
